-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 98
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S50000x128, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x128, .f32⟩
  | .hbm, ⟨51, _⟩ => ⟨S850000x1, .f32⟩
  | .hbm, ⟨52, _⟩ => ⟨S850000x128, .f32⟩
  | .hbm, ⟨53, _⟩ => ⟨S850000x128, .f32⟩
  | .hbm, ⟨54, _⟩ => ⟨S_, .f32⟩
  | .hbm, ⟨55, _⟩ => ⟨S50000x128, .f32⟩
  | .hbm, ⟨56, _⟩ => ⟨S850000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x128, .f32⟩
  | .hbm, ⟨70, _⟩ => ⟨S850000x1, .f32⟩
  | .hbm, ⟨71, _⟩ => ⟨S850000x128, .f32⟩
  | .hbm, ⟨72, _⟩ => ⟨S850000x128, .f32⟩
  | .hbm, ⟨73, _⟩ => ⟨S_, .f32⟩
  | .hbm, ⟨74, _⟩ => ⟨S50000x128, .f32⟩
  | .hbm, ⟨75, _⟩ => ⟨S850000x1, .i32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x128, .f32⟩
  | .hbm, ⟨89, _⟩ => ⟨S850000x1, .f32⟩
  | .hbm, ⟨90, _⟩ => ⟨S850000x128, .f32⟩
  | .hbm, ⟨91, _⟩ => ⟨S850000x128, .f32⟩
  | .hbm, ⟨92, _⟩ => ⟨S_, .f32⟩
  | .hbm, ⟨93, _⟩ => ⟨S50000x128, .f32⟩
  | .hbm, ⟨94, _⟩ => ⟨S850000x1, .i32⟩
  | .hbm, ⟨95, _⟩ => ⟨S50000x128, .f32⟩
  | .hbm, ⟨96, _⟩ => ⟨S1x128, .f32⟩
  | .hbm, ⟨97, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 107
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S50000x128, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x128, .f32⟩
  | .hbm, ⟨51, _⟩ => ⟨S850000x1, .f32⟩
  | .hbm, ⟨52, _⟩ => ⟨S850000x128, .f32⟩
  | .hbm, ⟨53, _⟩ => ⟨S850000x128, .f32⟩
  | .hbm, ⟨54, _⟩ => ⟨S_, .f32⟩
  | .hbm, ⟨55, _⟩ => ⟨S50000x128, .f32⟩
  | .hbm, ⟨56, _⟩ => ⟨S850000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x128, .f32⟩
  | .hbm, ⟨74, _⟩ => ⟨S850000x1, .f32⟩
  | .hbm, ⟨75, _⟩ => ⟨S850000x128, .f32⟩
  | .hbm, ⟨76, _⟩ => ⟨S850000x128, .f32⟩
  | .hbm, ⟨77, _⟩ => ⟨S_, .f32⟩
  | .hbm, ⟨78, _⟩ => ⟨S50000x128, .f32⟩
  | .hbm, ⟨79, _⟩ => ⟨S850000x1, .i32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000x128, .f32⟩
  | .hbm, ⟨97, _⟩ => ⟨S850000x1, .f32⟩
  | .hbm, ⟨98, _⟩ => ⟨S850000x128, .f32⟩
  | .hbm, ⟨99, _⟩ => ⟨S850000x128, .f32⟩
  | .hbm, ⟨100, _⟩ => ⟨S_, .f32⟩
  | .hbm, ⟨101, _⟩ => ⟨S50000x128, .f32⟩
  | .hbm, ⟨102, _⟩ => ⟨S850000x1, .i32⟩
  | .hbm, ⟨103, _⟩ => ⟨S50000x128, .f32⟩
  | .hbm, ⟨104, _⟩ => ⟨S1x128, .f32⟩
  | .hbm, ⟨105, _⟩ => ⟨S50000x128, .f32⟩
  | .hbm, ⟨106, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_c_10 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.MatmulBlock.lean ====
/-
  One grid point of the linear transform: a 5000 × 128 block of rows times the 128 × 128 weight matrix.

  The kernel casts both operands to bf16, multiplies them into a zero accumulator, and stores the f32 product.  Over the
  extended reals the casts are the identity and the product into zero is the plain sum
      `out[r, c] = Σ_k x[r, k] · w[k, c]`.
  The three matmul regions of the program differ only in a shape cast of the row block onto its own shape.
-/
import proofs.«122727_j56057913147791_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.TcCoe

/-- Row `r` of the block at contraction index `k`. -/
abbrev rowAt (i : S5000x128.Idx) (k : Fin 128) : S5000x128.Idx := fun a => match a with
  | ⟨0, _⟩ => ⟨(i 0).val, (i 0).isLt⟩
  | ⟨1, _⟩ => ⟨k.val, k.isLt⟩

/-- Column `c` of the weight matrix at contraction index `k`. -/
abbrev colAt (i : S5000x128.Idx) (k : Fin 128) : S128x128.Idx := fun a => match a with
  | ⟨0, _⟩ => ⟨k.val, k.isLt⟩
  | ⟨1, _⟩ => ⟨(i 1).val, (i 1).isLt⟩

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, read at an entry: the sum over the contraction index. -/
theorem blockProduct (x : FVec Ideal S5000x128 .bf16) (w : FVec Ideal S128x128 .bf16) (i : S5000x128.Idx) :
    matmul dot_S5000x128_S128x128_S5000x128_1_0_0_1_n_n none x w (constant S5000x128 .f32 0x00000000#32) i
      = ∑ k : Fin 128, x (rowAt i k) * w (colAt i k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowAt i k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx i ((ValueIdx.contrEquiv1 dot_S5000x128_S128x128_S5000x128_1_0_0_1_n_n 128 rfl rfl).symm k) = colAt i k := funext fun a => Fin.ext (by
    match a with
    | ⟨0, _⟩ => exact (rhs_axis0 _ _).trans hk
    | ⟨1, _⟩ => exact rhs_axis1 _ _)
  rw [el, er]

/-- Row `r` of the whole feature matrix at contraction index `k`. -/
abbrev rowOf (i : S50000x128.Idx) (k : Fin 128) : S50000x128.Idx := fun a => match a with
  | ⟨0, _⟩ => ⟨(i 0).val, (i 0).isLt⟩
  | ⟨1, _⟩ => ⟨k.val, k.isLt⟩

/-- Column `c` of the weight matrix at contraction index `k`, for an entry of the whole product. -/
abbrev colOf (i : S50000x128.Idx) (k : Fin 128) : S128x128.Idx := fun a => match a with
  | ⟨0, _⟩ => ⟨k.val, k.isLt⟩
  | ⟨1, _⟩ => ⟨(i 1).val, (i 1).isLt⟩

/-- The whole 50000 × 128 product, entry by entry. -/
def product (X : S50000x128.Idx → EReal) (W : S128x128.Idx → EReal) : S50000x128.Idx → EReal :=
  fun i => ∑ k : Fin 128, X (rowOf i k) * W (colOf i k)

/-- Region 0's stored value at an entry. -/
theorem pay0_apply (x : Vec Ideal S5000x128 .f32) (w : Vec Ideal S128x128 .f32) (i : S5000x128.Idx) :
    k0_pay1 x w i = ∑ k : Fin 128, x (rowAt i k) * w (colAt i k) := by
  unfold k0_pay1
  exact blockProduct _ _ i

/-- Region 2's stored value at an entry. -/
theorem pay2_apply (x : Vec Ideal S5000x128 .f32) (w : Vec Ideal S128x128 .f32) (i : S5000x128.Idx) :
    k2_pay1 x w i = ∑ k : Fin 128, x (rowAt i k) * w (colAt i k) := by
  unfold k2_pay1
  rw [shapeCast_self]
  exact blockProduct _ _ i

/-- Region 4's stored value at an entry. -/
theorem pay4_apply (x : Vec Ideal S5000x128 .f32) (w : Vec Ideal S128x128 .f32) (i : S5000x128.Idx) :
    k4_pay1 x w i = ∑ k : Fin 128, x (rowAt i k) * w (colAt i k) := by
  unfold k4_pay1
  rw [shapeCast_self]
  exact blockProduct _ _ i

end Cert.KernelIdeal.Blocks

end
-- ==== Proof.Region0.lean ====
/-
  The first matmul region: ten grid points, point `t` multiplying rows `5000 t … 5000 t + 4999` of its first operand by
  the whole weight matrix and writing the product to the same rows of the result.  The ten row blocks tile the
  50000 rows, so after the region the result array is the whole product `Blocks.product` of the two arrays the
  region was entered with.
-/
import proofs.«122727_j56057913147791_1_alg».proof.Proof.Gen.KernelIdeal.Frame
import proofs.«122727_j56057913147791_1_alg».proof.Proof.MatmulBlock
import Idealize.ShloMosaic.Lib.Pipeline.Value

noncomputable section

namespace Cert.KernelIdeal.Region0

open Cert.KernelIdeal Cert.KernelIdeal.Gen Cert.KernelIdeal.Blocks Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The features array as the region finds it. -/
abbrev xarr (c : Dev nD) : S50000x128.Idx → EReal := V c main_arg0
/-- The weights array as the region finds it. -/
abbrev warr (c : Dev nD) : S128x128.Idx → EReal := V c main_arg2

theorem origin : (![0, 0] : Fin 2 → Nat) = fun _ => 0 := funext fun a => by fin_cases a <;> rfl

/-- Point `t` reads row block `t` of the features and the one block of the weights, and writes row block `t`. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is row block `t` of the whole product. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := blockIndex t
  funext j
  show k0_pay1 (iblk0 V c 0 t) (iblk0 V c 1 t) j = product (V c main_arg0) (V c main_arg2) (((cfg0.win 2).blk t).view.emb j)
  refine (pay0_apply (iblk0 V c 0 t) (iblk0 V c 1 t) j).trans ?_
  unfold product
  refine Finset.sum_congr rfl fun k _ => ?_
  show xarr V c (((cfg0.win 0).blk t).view.emb (rowAt j k)) * warr V c (((cfg0.win 1).blk t).view.emb (colAt j k))
    = xarr V c (rowOf (((cfg0.win 2).blk t).view.emb j) k) * warr V c (colOf (((cfg0.win 2).blk t).view.emb j) k)
  have h0 : ((cfg0.win 0).blk t).view.emb (rowAt j k) = rowOf (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (colAt j k) = colOf (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An entry of the result array lies in point `t`'s block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Row `r` is written by point `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5⟩ := blockIndex t
  refine ⟨t, flush0_2 t, ?_⟩
  rw [mem_blk]
  intro a
  have ht : t.val = (i 0).val / 5000 := rfl
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its result array is the whole product of its two operand arrays as the region found them. -/
theorem final (c : Dev nD) : (dat0 V c).arrAt 2 cfg0.N = product (V c main_arg0) (V c main_arg2) :=
  (dat0 V c).arrAt_eq_of_cover 2 (product (V c main_arg0) (V c main_arg2)) (fun t _ => flushed_eq V c t) cover

end Cert.KernelIdeal.Region0

end
-- ==== Proof.BiasBlock.lean ====
/-
  One grid point of the bias step: a 5000 × 128 block of aggregated rows plus the 1 × 128 bias row, then (in the two
  hidden layers) the positive part:
      `out[r, c] = max (a[r, c] + b[0, c], 0)`,        in the last layer   `out[r, c] = a[r, c] + b[0, c]`.
-/
import proofs.«122727_j56057913147791_1_alg».proof.Proof.Gen.KernelIdeal.Skeleton
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe

/-- The bias row's entry above column `c` of a block entry. -/
abbrev biasAt (i : S5000x128.Idx) : S1x128.Idx := fun a => match a with
  | ⟨0, _⟩ => ⟨0, Nat.one_pos⟩
  | ⟨1, _⟩ => ⟨(i 1).val, (i 1).isLt⟩

/-- The bias row's entry above column `c` of an entry of the whole array. -/
abbrev biasOf (i : S50000x128.Idx) : S1x128.Idx := fun a => match a with
  | ⟨0, _⟩ => ⟨0, Nat.one_pos⟩
  | ⟨1, _⟩ => ⟨(i 1).val, (i 1).isLt⟩

/-- The bias row broadcast down the block, read at an entry. -/
theorem biasRow_apply (b : FVec Ideal S1x128 .f32) (i : S5000x128.Idx) :
    broadcastTo S5000x128 b broadcasts_S1x128_S5000x128 i = b (biasAt i) := by
  refine broadcastTo_apply b broadcasts_S1x128_S5000x128 i (biasAt i) fun a => ?_
  match a with
  | ⟨0, _⟩ => rfl
  | ⟨1, _⟩ => rfl

/-- Bias then positive part over the whole array, entry by entry. -/
def biasRelu (A : S50000x128.Idx → EReal) (B : S1x128.Idx → EReal) : S50000x128.Idx → EReal :=
  fun i => max (A i + B (biasOf i)) (Ideal.ofBits .f32 0x00000000#32)

/-- Bias over the whole array, entry by entry. -/
def biasOnly (A : S50000x128.Idx → EReal) (B : S1x128.Idx → EReal) : S50000x128.Idx → EReal :=
  fun i => A i + B (biasOf i)

/-- Region 1's stored value at an entry. -/
theorem pay1_apply (a : Vec Ideal S5000x128 .f32) (b : Vec Ideal S1x128 .f32) (i : S5000x128.Idx) :
    k1_pay1 a b i = max (a i + b (biasAt i)) (Ideal.ofBits .f32 0x00000000#32) := by
  unfold k1_pay1
  rw [shapeCast_self, shapeCast_self]
  show max (a i + broadcastTo S5000x128 b broadcasts_S1x128_S5000x128 i) _ = _
  rw [biasRow_apply]
  rfl

/-- Region 3's stored value at an entry. -/
theorem pay3_apply (a : Vec Ideal S5000x128 .f32) (b : Vec Ideal S1x128 .f32) (i : S5000x128.Idx) :
    k3_pay1 a b i = max (a i + b (biasAt i)) (Ideal.ofBits .f32 0x00000000#32) := by
  unfold k3_pay1
  rw [shapeCast_self, shapeCast_self]
  show max (a i + broadcastTo S5000x128 b broadcasts_S1x128_S5000x128 i) _ = _
  rw [biasRow_apply]
  rfl

/-- Region 5's stored value at an entry. -/
theorem pay5_apply (a : Vec Ideal S5000x128 .f32) (b : Vec Ideal S1x128 .f32) (i : S5000x128.Idx) :
    k5_pay1 a b i = a i + b (biasAt i) := by
  unfold k5_pay1
  rw [shapeCast_self, shapeCast_self]
  show a i + broadcastTo S5000x128 b broadcasts_S1x128_S5000x128 i = _
  rw [biasRow_apply]

end Cert.KernelIdeal.Blocks

end
-- ==== Proof.Region1.lean ====
/-
  The first bias region: ten grid points, point `t` adding the 1 × 128 bias row to rows `5000 t … 5000 t + 4999` of the
  aggregated features and keeping the positive part.  The ten row blocks tile the 50000 rows, so after the region the
  result array is `Blocks.biasRelu` of the two arrays the region was entered with.
-/
import proofs.«122727_j56057913147791_1_alg».proof.Proof.Gen.KernelIdeal.Frame
import proofs.«122727_j56057913147791_1_alg».proof.Proof.BiasBlock
import Idealize.ShloMosaic.Lib.Pipeline.Value

noncomputable section

namespace Cert.KernelIdeal.Region1

open Cert.KernelIdeal Cert.KernelIdeal.Gen Cert.KernelIdeal.Blocks Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The aggregated features as the region finds them. -/
abbrev aarr (c : Dev nD) : S50000x128.Idx → EReal := V c main_v40
/-- The bias row as the region finds it. -/
abbrev barr (c : Dev nD) : S1x128.Idx → EReal := V c main_v41

theorem origin : (![0, 0] : Fin 2 → Nat) = fun _ => 0 := funext fun a => by fin_cases a <;> rfl

/-- Point `t` reads row block `t` of the features and the one block of the bias row, and writes row block `t`. -/
theorem blockIndex : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is row block `t` of the whole array's bias step. -/
theorem flushed_eq (c : Dev nD) (t : Fin cfg1.N) :
    (dat1 V c).flushed 2 t = ((cfg1.win 2).blk t).view.read (Elt Ideal) (biasRelu (V c main_v40) (V c main_v41)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := blockIndex t
  funext j
  show k1_pay1 (iblk1 V c 0 t) (iblk1 V c 1 t) j = biasRelu (V c main_v40) (V c main_v41) (((cfg1.win 2).blk t).view.emb j)
  refine (pay1_apply (iblk1 V c 0 t) (iblk1 V c 1 t) j).trans ?_
  unfold biasRelu
  show max (aarr V c (((cfg1.win 0).blk t).view.emb j) + barr V c (((cfg1.win 1).blk t).view.emb (biasAt j))) _
    = max (aarr V c (((cfg1.win 2).blk t).view.emb j) + barr V c (biasOf (((cfg1.win 2).blk t).view.emb j))) _
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (biasAt j) = biasOf (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An entry of the result array lies in point `t`'s block iff each coordinate is in the block's range. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v42).slice (win1_2.rect t)).set ↔ _
  rw [View.set_slice_whole, Rect.mem_set_unit]
  exact Iff.rfl

/-- Row `r` is written by point `r / 5000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4, e5⟩ := blockIndex t
  refine ⟨t, flush1_2 t, ?_⟩
  rw [mem_blk]
  intro a
  have ht : t.val = (i 0).val / 5000 := rfl
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its result array is the bias step of its two operand arrays as the region found them. -/
theorem final (c : Dev nD) : (dat1 V c).arrAt 2 cfg1.N = biasRelu (V c main_v40) (V c main_v41) :=
  (dat1 V c).arrAt_eq_of_cover 2 (biasRelu (V c main_v40) (V c main_v41)) (fun t _ => flushed_eq V c t) cover

end Cert.KernelIdeal.Region1

end
-- ==== Proof.Region2.lean ====
/-
  Matmul region 2: ten grid points, point `t` multiplying rows `5000 t … 5000 t + 4999` of its first operand by
  the whole weight matrix and writing the product to the same rows of the result.  The ten row blocks tile the
  50000 rows, so after the region the result array is the whole product `Blocks.product` of the two arrays the
  region was entered with.
-/
import proofs.«122727_j56057913147791_1_alg».proof.Proof.Gen.KernelIdeal.Frame
import proofs.«122727_j56057913147791_1_alg».proof.Proof.MatmulBlock
import Idealize.ShloMosaic.Lib.Pipeline.Value

noncomputable section

namespace Cert.KernelIdeal.Region2

open Cert.KernelIdeal Cert.KernelIdeal.Gen Cert.KernelIdeal.Blocks Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The features array as the region finds it. -/
abbrev xarr (c : Dev nD) : S50000x128.Idx → EReal := V c main_v42
/-- The weights array as the region finds it. -/
abbrev warr (c : Dev nD) : S128x128.Idx → EReal := V c main_arg4

theorem origin : (![0, 0] : Fin 2 → Nat) = fun _ => 0 := funext fun a => by fin_cases a <;> rfl

/-- Point `t` reads row block `t` of the features and the one block of the weights, and writes row block `t`. -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is row block `t` of the whole product. -/
theorem flushed_eq (c : Dev nD) (t : Fin cfg2.N) :
    (dat2 V c).flushed 2 t = ((cfg2.win 2).blk t).view.read (Elt Ideal) (product (V c main_v42) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := blockIndex t
  funext j
  show k2_pay1 (iblk2 V c 0 t) (iblk2 V c 1 t) j = product (V c main_v42) (V c main_arg4) (((cfg2.win 2).blk t).view.emb j)
  refine (pay2_apply (iblk2 V c 0 t) (iblk2 V c 1 t) j).trans ?_
  unfold product
  refine Finset.sum_congr rfl fun k _ => ?_
  show xarr V c (((cfg2.win 0).blk t).view.emb (rowAt j k)) * warr V c (((cfg2.win 1).blk t).view.emb (colAt j k))
    = xarr V c (rowOf (((cfg2.win 2).blk t).view.emb j) k) * warr V c (colOf (((cfg2.win 2).blk t).view.emb j) k)
  have h0 : ((cfg2.win 0).blk t).view.emb (rowAt j k) = rowOf (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (colAt j k) = colOf (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [h0, h1]

/-- An entry of the result array lies in point `t`'s block iff each coordinate is in the block's range. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

/-- Row `r` is written by point `r / 5000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e0, e1, e2, e3, e4, e5⟩ := blockIndex t
  refine ⟨t, flush2_2 t, ?_⟩
  rw [mem_blk]
  intro a
  have ht : t.val = (i 0).val / 5000 := rfl
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region its result array is the whole product of its two operand arrays as the region found them. -/
theorem final (c : Dev nD) : (dat2 V c).arrAt 2 cfg2.N = product (V c main_v42) (V c main_arg4) :=
  (dat2 V c).arrAt_eq_of_cover 2 (product (V c main_v42) (V c main_arg4)) (fun t _ => flushed_eq V c t) cover

end Cert.KernelIdeal.Region2

end
-- ==== Proof.Region3.lean ====
/-
  Bias region 3: ten grid points, point `t` adding the 1 × 128 bias row to rows `5000 t … 5000 t + 4999` of the
  aggregated features and keeping the positive part.  The ten row blocks tile the 50000 rows, so after the region the
  result array is `Blocks.biasRelu` of the two arrays the region was entered with.
-/
import proofs.«122727_j56057913147791_1_alg».proof.Proof.Gen.KernelIdeal.Frame
import proofs.«122727_j56057913147791_1_alg».proof.Proof.BiasBlock
import Idealize.ShloMosaic.Lib.Pipeline.Value

noncomputable section

namespace Cert.KernelIdeal.Region3

open Cert.KernelIdeal Cert.KernelIdeal.Gen Cert.KernelIdeal.Blocks Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The aggregated features as the region finds them. -/
abbrev aarr (c : Dev nD) : S50000x128.Idx → EReal := V c main_v56
/-- The bias row as the region finds it. -/
abbrev barr (c : Dev nD) : S1x128.Idx → EReal := V c main_v57

theorem origin : (![0, 0] : Fin 2 → Nat) = fun _ => 0 := funext fun a => by fin_cases a <;> rfl

/-- Point `t` reads row block `t` of the features and the one block of the bias row, and writes row block `t`. -/
theorem blockIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is row block `t` of the whole array's bias step. -/
theorem flushed_eq (c : Dev nD) (t : Fin cfg3.N) :
    (dat3 V c).flushed 2 t = ((cfg3.win 2).blk t).view.read (Elt Ideal) (biasRelu (V c main_v56) (V c main_v57)) := by
  show (cfg3.win 2).cut (grid3.coords t) ((dat3 V c).after 2 t) = _
  rw [after3_2]
  unfold out3_2
  rw [View.canon_unit_zero origin]
  simp only [View.ld_unit_zero (S := S5000x128) origin, View.ld_unit_zero (S := S1x128) origin]
  obtain ⟨e0, e1, e2, e3, e4, e5⟩ := blockIndex t
  funext j
  show k3_pay1 (iblk3 V c 0 t) (iblk3 V c 1 t) j = biasRelu (V c main_v56) (V c main_v57) (((cfg3.win 2).blk t).view.emb j)
  refine (pay3_apply (iblk3 V c 0 t) (iblk3 V c 1 t) j).trans ?_
  unfold biasRelu
  show max (aarr V c (((cfg3.win 0).blk t).view.emb j) + barr V c (((cfg3.win 1).blk t).view.emb (biasAt j))) _
    = max (aarr V c (((cfg3.win 2).blk t).view.emb j) + barr V c (biasOf (((cfg3.win 2).blk t).view.emb j))) _
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (biasAt j) = biasOf (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  rw [h0, h1]

/-- An entry of the result array lies in point `t`'s block iff each coordinate is in the block's range. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v58).slice (win3_2.rect t)).set ↔ _
  rw [View.set_slice_whole, Rect.mem_set_unit]
  exact Iff.rfl

/-- Row `r` is written by point `r / 5000`. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e0, e1, e2, e3, e4, e5⟩ := blockIndex t
  refine ⟨t, flush3_2 t, ?_⟩
  rw [mem_blk]
  intro a
  have ht : t.val = (i 0).val / 5000 := rfl
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region its result array is the bias step of its two operand arrays as the region found them. -/
theorem final (c : Dev nD) : (dat3 V c).arrAt 2 cfg3.N = biasRelu (V c main_v56) (V c main_v57) :=
  (dat3 V c).arrAt_eq_of_cover 2 (biasRelu (V c main_v56) (V c main_v57)) (fun t _ => flushed_eq V c t) cover

end Cert.KernelIdeal.Region3

end
-- ==== Proof.Region4.lean ====
/-
  Matmul region 4: ten grid points, point `t` multiplying rows `5000 t … 5000 t + 4999` of its first operand by
  the whole weight matrix and writing the product to the same rows of the result.  The ten row blocks tile the
  50000 rows, so after the region the result array is the whole product `Blocks.product` of the two arrays the
  region was entered with.
-/
import proofs.«122727_j56057913147791_1_alg».proof.Proof.Gen.KernelIdeal.Frame
import proofs.«122727_j56057913147791_1_alg».proof.Proof.MatmulBlock
import Idealize.ShloMosaic.Lib.Pipeline.Value

noncomputable section

namespace Cert.KernelIdeal.Region4

open Cert.KernelIdeal Cert.KernelIdeal.Gen Cert.KernelIdeal.Blocks Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The features array as the region finds it. -/
abbrev xarr (c : Dev nD) : S50000x128.Idx → EReal := V c main_v58
/-- The weights array as the region finds it. -/
abbrev warr (c : Dev nD) : S128x128.Idx → EReal := V c main_arg6

theorem origin : (![0, 0] : Fin 2 → Nat) = fun _ => 0 := funext fun a => by fin_cases a <;> rfl

/-- Point `t` reads row block `t` of the features and the one block of the weights, and writes row block `t`. -/
theorem blockIndex : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is row block `t` of the whole product. -/
theorem flushed_eq (c : Dev nD) (t : Fin cfg4.N) :
    (dat4 V c).flushed 2 t = ((cfg4.win 2).blk t).view.read (Elt Ideal) (product (V c main_v58) (V c main_arg6)) := by
  show (cfg4.win 2).cut (grid4.coords t) ((dat4 V c).after 2 t) = _
  rw [after4_2]
  unfold out4_2
  rw [View.canon_unit_zero origin]
  simp only [View.ld_unit_zero (S := S5000x128) origin, View.ld_unit_zero (S := S128x128) origin]
  obtain ⟨e0, e1, e2, e3, e4, e5⟩ := blockIndex t
  funext j
  show k4_pay1 (iblk4 V c 0 t) (iblk4 V c 1 t) j = product (V c main_v58) (V c main_arg6) (((cfg4.win 2).blk t).view.emb j)
  refine (pay4_apply (iblk4 V c 0 t) (iblk4 V c 1 t) j).trans ?_
  unfold product
  refine Finset.sum_congr rfl fun k _ => ?_
  show xarr V c (((cfg4.win 0).blk t).view.emb (rowAt j k)) * warr V c (((cfg4.win 1).blk t).view.emb (colAt j k))
    = xarr V c (rowOf (((cfg4.win 2).blk t).view.emb j) k) * warr V c (colOf (((cfg4.win 2).blk t).view.emb j) k)
  have h0 : ((cfg4.win 0).blk t).view.emb (rowAt j k) = rowOf (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (colAt j k) = colOf (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [h0, h1]

/-- An entry of the result array lies in point `t`'s block iff each coordinate is in the block's range. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v59).slice (win4_2.rect t)).set ↔ _
  rw [View.set_slice_whole, Rect.mem_set_unit]
  exact Iff.rfl

/-- Row `r` is written by point `r / 5000`. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨e0, e1, e2, e3, e4, e5⟩ := blockIndex t
  refine ⟨t, flush4_2 t, ?_⟩
  rw [mem_blk]
  intro a
  have ht : t.val = (i 0).val / 5000 := rfl
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the region its result array is the whole product of its two operand arrays as the region found them. -/
theorem final (c : Dev nD) : (dat4 V c).arrAt 2 cfg4.N = product (V c main_v58) (V c main_arg6) :=
  (dat4 V c).arrAt_eq_of_cover 2 (product (V c main_v58) (V c main_arg6)) (fun t _ => flushed_eq V c t) cover

end Cert.KernelIdeal.Region4

end
-- ==== Proof.Region5.lean ====
/-
  Bias region 5: ten grid points, point `t` adding the 1 × 128 bias row to rows `5000 t … 5000 t + 4999` of the
  aggregated features.  The ten row blocks tile the 50000 rows, so after the region the
  result array is `Blocks.biasOnly` of the two arrays the region was entered with.
-/
import proofs.«122727_j56057913147791_1_alg».proof.Proof.Gen.KernelIdeal.Frame
import proofs.«122727_j56057913147791_1_alg».proof.Proof.BiasBlock
import Idealize.ShloMosaic.Lib.Pipeline.Value

noncomputable section

namespace Cert.KernelIdeal.Region5

open Cert.KernelIdeal Cert.KernelIdeal.Gen Cert.KernelIdeal.Blocks Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The aggregated features as the region finds them. -/
abbrev aarr (c : Dev nD) : S50000x128.Idx → EReal := V c main_v72
/-- The bias row as the region finds it. -/
abbrev barr (c : Dev nD) : S1x128.Idx → EReal := V c main_v73

theorem origin : (![0, 0] : Fin 2 → Nat) = fun _ => 0 := funext fun a => by fin_cases a <;> rfl

/-- Point `t` reads row block `t` of the features and the one block of the bias row, and writes row block `t`. -/
theorem blockIndex : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is row block `t` of the whole array's bias step. -/
theorem flushed_eq (c : Dev nD) (t : Fin cfg5.N) :
    (dat5 V c).flushed 2 t = ((cfg5.win 2).blk t).view.read (Elt Ideal) (biasOnly (V c main_v72) (V c main_v73)) := by
  show (cfg5.win 2).cut (grid5.coords t) ((dat5 V c).after 2 t) = _
  rw [after5_2]
  unfold out5_2
  rw [View.canon_unit_zero origin]
  simp only [View.ld_unit_zero (S := S5000x128) origin, View.ld_unit_zero (S := S1x128) origin]
  obtain ⟨e0, e1, e2, e3, e4, e5⟩ := blockIndex t
  funext j
  show k5_pay1 (iblk5 V c 0 t) (iblk5 V c 1 t) j = biasOnly (V c main_v72) (V c main_v73) (((cfg5.win 2).blk t).view.emb j)
  refine (pay5_apply (iblk5 V c 0 t) (iblk5 V c 1 t) j).trans ?_
  unfold biasOnly
  show aarr V c (((cfg5.win 0).blk t).view.emb j) + barr V c (((cfg5.win 1).blk t).view.emb (biasAt j))
    = aarr V c (((cfg5.win 2).blk t).view.emb j) + barr V c (biasOf (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 128 + 1 * (j 1).val = win5_2.index t (1 : Fin 2) * 128 + 1 * (j 1).val; omega
  have h1 : ((cfg5.win 1).blk t).view.emb (biasAt j) = biasOf (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 128 + 1 * (j 1).val = win5_2.index t (1 : Fin 2) * 128 + 1 * (j 1).val; omega
  rw [h0, h1]

/-- An entry of the result array lies in point `t`'s block iff each coordinate is in the block's range. -/
theorem mem_blk (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v74).slice (win5_2.rect t)).set ↔ _
  rw [View.set_slice_whole, Rect.mem_set_unit]
  exact Iff.rfl

/-- Row `r` is written by point `r / 5000`. -/
theorem cover (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨e0, e1, e2, e3, e4, e5⟩ := blockIndex t
  refine ⟨t, flush5_2 t, ?_⟩
  rw [mem_blk]
  intro a
  have ht : t.val = (i 0).val / 5000 := rfl
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the region its result array is the bias step of its two operand arrays as the region found them. -/
theorem final (c : Dev nD) : (dat5 V c).arrAt 2 cfg5.N = biasOnly (V c main_v72) (V c main_v73) :=
  (dat5 V c).arrAt_eq_of_cover 2 (biasOnly (V c main_v72) (V c main_v73)) (fun t _ => flushed_eq V c t) cover

end Cert.KernelIdeal.Region5

end
-- ==== Proof.Spec.lean ====
/-
  The three-layer graph convolution both programs compute, as ONE function of the eight arguments.

  With the edge list `e : i32[2, 800000]`, the source and target node of edge `j` are `e[0, j]` and `e[1, j]`, and
  every node gets a self loop: `srcOf e` and `dstOf e` are the two rows with `0, 1, …, 49999` appended (850000
  entries each).  The degree of a node counts the edges that end in it (`scatterAdd` of ones along `dstOf e`),
  `degInv` is its inverse square root, and edge `j` carries the weight `normOf e j = degInv[src j] · degInv[dst j]`
  (a negative node number is read from the end of the table, which `wrapIdx` spells).

  One layer maps node features `h : f32[50000, 128]` to
      `agg e (h · W) + b`,        `agg e y [v, :] = Σ_{j : dst j = v} normOf e j · y[src j, :]`,
  followed by `max (·, 0)` in the first two layers.  The matrix product, the gather, the edge weights, the scatter-add
  and the bias are spelt with the host operations of the reference program, so that the reference's composed term
  unfolds to `result` literally; the kernel program computes the matrix product and the bias step in Pallas regions,
  and its value is brought to the same spelling region by region.
-/
import proofs.«122727_j56057913147791_1_alg».proof.Proof.Gen.ReferenceIdeal
import Idealize.ShloMosaic.PureOps.Ideal

noncomputable section

namespace Cert.Gcn

open Cert.ReferenceIdeal Cert.ReferenceIdeal.Gen Idealize.ShloMosaic Idealize.ShloMosaic.TcCoe

variable {F : FTy → Type} [FloatOps F]

/-- Source node of every edge, self loops appended. -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Target node of every edge, self loops appended. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A column of node numbers as gather indices: a negative number counts from the end of the 50000 rows. -/
def wrapIdx (s : (⟨S850000, .i32⟩ : BufTy).Contents (Elt F)) : (⟨S850000x1, .i32⟩ : BufTy).Contents (Elt F) :=
  broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s)

/-- The inverse square root of every node's in-degree (self loop included). -/
def degInv (e : (⟨S2x800000, .i32⟩ : BufTy).Contents (Elt F)) : (⟨S50000, .f32⟩ : BufTy).Contents (Elt F) :=
  Host.rsqrt (Host.scatterAdd scatter_S50000_S850000x1_S850000_n_0_0_1 (broadcastInDim S50000 ![] bcast_S_S50000 (constant S_ .f32 0x00000000#32)) (broadcastInDim S850000x1 ![0] bcast_S850000_S850000x1_0 (dstOf e)) (broadcastInDim S850000 ![] bcast_S_S850000 (constant S_ .f32 0x3F800000#32)))

/-- The symmetric normalisation weight of every edge. -/
def normOf (e : (⟨S2x800000, .i32⟩ : BufTy).Contents (Elt F)) : (⟨S850000, .f32⟩ : BufTy).Contents (Elt F) :=
  mulf (Host.gather gather_S50000_S850000x1_S850000_n_0_n_n_0_1_1 (degInv e) (wrapIdx (srcOf e))) (Host.gather gather_S50000_S850000x1_S850000_n_0_n_n_0_1_1 (degInv e) (wrapIdx (dstOf e)))

/-- Message passing, with the edge data as parameters: row `v` of the result is the sum over the edges into `v` of
    the edge's weight times the source node's row of `y`. -/
def aggWith (s d : (⟨S850000, .i32⟩ : BufTy).Contents (Elt F)) (w : (⟨S850000, .f32⟩ : BufTy).Contents (Elt F))
    (y : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 y (wrapIdx s)) (broadcastInDim S850000x128 ![0, 1] bcast_S850000x1_S850000x128_0_1 (broadcastInDim S850000x1 ![0] bcast_S850000_S850000x1_0 w)))

/-- Message passing along the edge list `e`. -/
def agg (e : (⟨S2x800000, .i32⟩ : BufTy).Contents (Elt F)) (y : (⟨S50000x128, .f32⟩ : BufTy).Contents (Elt F)) :
    (⟨S50000x128, .f32⟩ : BufTy).Contents (Elt F) :=
  aggWith (srcOf e) (dstOf e) (normOf e) y

/-- The product of the node features with a layer's weight matrix. -/
def lin (h : (⟨S50000x128, .f32⟩ : BufTy).Contents (Elt F)) (W : (⟨S128x128, .f32⟩ : BufTy).Contents (Elt F)) :
    (⟨S50000x128, .f32⟩ : BufTy).Contents (Elt F) :=
  Host.dotGeneral dot_S50000x128_S128x128_S50000x128_1_0_0_1_n_n none h W

/-- A bias vector added to every row. -/
def addBias (a : (⟨S50000x128, .f32⟩ : BufTy).Contents (Elt F)) (b : (⟨S128, .f32⟩ : BufTy).Contents (Elt F)) :
    (⟨S50000x128, .f32⟩ : BufTy).Contents (Elt F) :=
  addf a (broadcastInDim S50000x128 ![0, 1] bcast_S1x128_S50000x128_0_1 (broadcastInDim S1x128 ![1] bcast_S128_S1x128_1 b))

/-- The positive part, entry by entry. -/
def relu (a : (⟨S50000x128, .f32⟩ : BufTy).Contents (Elt F)) : (⟨S50000x128, .f32⟩ : BufTy).Contents (Elt F) :=
  maximumf a (broadcastInDim S50000x128 ![] bcast_S_S50000x128 (constant S_ .f32 0x00000000#32))

/-- The last layer: no activation. -/
def layerOut (e : (⟨S2x800000, .i32⟩ : BufTy).Contents (Elt F)) (h : (⟨S50000x128, .f32⟩ : BufTy).Contents (Elt F))
    (W : (⟨S128x128, .f32⟩ : BufTy).Contents (Elt F)) (b : (⟨S128, .f32⟩ : BufTy).Contents (Elt F)) :
    (⟨S50000x128, .f32⟩ : BufTy).Contents (Elt F) :=
  addBias (agg e (lin h W)) b

/-- A hidden layer. -/
def layer (e : (⟨S2x800000, .i32⟩ : BufTy).Contents (Elt F)) (h : (⟨S50000x128, .f32⟩ : BufTy).Contents (Elt F))
    (W : (⟨S128x128, .f32⟩ : BufTy).Contents (Elt F)) (b : (⟨S128, .f32⟩ : BufTy).Contents (Elt F)) :
    (⟨S50000x128, .f32⟩ : BufTy).Contents (Elt F) :=
  relu (layerOut e h W b)

/-- The network: two hidden layers and the output layer over one edge list. -/
def result (x : (⟨S50000x128, .f32⟩ : BufTy).Contents (Elt F)) (e : (⟨S2x800000, .i32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (W3 : (⟨S128x128, .f32⟩ : BufTy).Contents (Elt F)) (b3 : (⟨S128, .f32⟩ : BufTy).Contents (Elt F)) :
    (⟨S50000x128, .f32⟩ : BufTy).Contents (Elt F) :=
  layerOut e (layer e (layer e x W1 b1) W2 b2) W3 b3

end Cert.Gcn

end
-- ==== Proof.KHost.lean ====
/-
  The host stretches of the kernel program, each read as a function of the buffers it is entered with.

  The first stretch builds the edge data once: the source and target columns with the self loops appended and the
  edge weights (`Cert.Gcn.srcOf`, `dstOf`, `normOf` of the edge list).  Each later stretch does the message passing
  of one layer on the linear transform the matmul region before it left (`Cert.Gcn.aggWith` over those three
  buffers) and lays that layer's bias out as a 1 × 128 row for the bias region after it.  No stretch writes an
  argument, and none after the first writes the edge data.
-/
import proofs.«122727_j56057913147791_1_alg».proof.Proof.Gen.KernelIdeal.Launch
import proofs.«122727_j56057913147791_1_alg».proof.Proof.Spec
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]
variable (W : Valuation τ sig (Elt F))

/-- A bias vector laid out as a 1 × 128 row. -/
def biasRow (b : (⟨S128, .f32⟩ : BufTy).Contents (Elt F)) : (⟨S1x128, .f32⟩ : BufTy).Contents (Elt F) :=
  shapeCast S1x128 b shapeCasts_S128_S1x128

/-! ## The first stretch: the edge data -/

theorem src_eq : after hostOps0 W (Proc.devRef .tc main_v3) = Cert.Gcn.srcOf (W (Proc.devRef .tc main_arg1)) := by
  after_results
  rfl

theorem dst_eq : after hostOps0 W (Proc.devRef .tc main_v6) = Cert.Gcn.dstOf (W (Proc.devRef .tc main_arg1)) := by
  after_results
  rfl

set_option maxHeartbeats 4000000 in
theorem norm_eq : after hostOps0 W (Proc.devRef .tc main_v26) = Cert.Gcn.normOf (W (Proc.devRef .tc main_arg1)) := by
  after_results_simp <;> rfl

/-! ## The stretch before bias region 1 -/

set_option maxHeartbeats 4000000 in
theorem agg1_eq : after hostOps1 W (Proc.devRef .tc main_v40)
    = Cert.Gcn.aggWith (W (Proc.devRef .tc main_v3)) (W (Proc.devRef .tc main_v6)) (W (Proc.devRef .tc main_v26)) (W (Proc.devRef .tc main_v27)) := by
  after_results_simp <;> rfl

theorem row1_eq : after hostOps1 W (Proc.devRef .tc main_v41) = biasRow (W (Proc.devRef .tc main_arg3)) := by
  after_results
  rfl

/-! ## The stretch before bias region 3 -/

set_option maxHeartbeats 4000000 in
theorem agg3_eq : after hostOps3 W (Proc.devRef .tc main_v56)
    = Cert.Gcn.aggWith (W (Proc.devRef .tc main_v3)) (W (Proc.devRef .tc main_v6)) (W (Proc.devRef .tc main_v26)) (W (Proc.devRef .tc main_v43)) := by
  after_results_simp <;> rfl

theorem row3_eq : after hostOps3 W (Proc.devRef .tc main_v57) = biasRow (W (Proc.devRef .tc main_arg5)) := by
  after_results
  rfl

/-! ## The stretch before bias region 5 -/

set_option maxHeartbeats 4000000 in
theorem agg5_eq : after hostOps5 W (Proc.devRef .tc main_v72)
    = Cert.Gcn.aggWith (W (Proc.devRef .tc main_v3)) (W (Proc.devRef .tc main_v6)) (W (Proc.devRef .tc main_v26)) (W (Proc.devRef .tc main_v59)) := by
  after_results_simp <;> rfl

theorem row5_eq : after hostOps5 W (Proc.devRef .tc main_v73) = biasRow (W (Proc.devRef .tc main_arg7)) := by
  after_results
  rfl

/-! ## What a stretch leaves alone -/

/-- A buffer that no operation of a stretch writes holds after the stretch what it held before. -/
local macro "no_write" : tactic => `(tactic| (
  refine after_of_forall_not_mem _ _ (List.forall_iff_forall_mem.mp ?_)
  simp only [hostOps0, hostOps1, hostOps3, hostOps5, List.Forall, nullary_writes, unary_writes, binary_writes,
    ternary_writes, reshape_writes, Finset.mem_singleton]
  repeat' apply And.intro
  all_goals exact devRef_ne_of_ne (by decide)))

theorem keep0_arg0 : after hostOps0 W (Proc.devRef .tc main_arg0) = W (Proc.devRef .tc main_arg0) := by no_write
theorem keep0_arg2 : after hostOps0 W (Proc.devRef .tc main_arg2) = W (Proc.devRef .tc main_arg2) := by no_write
theorem keep0_arg3 : after hostOps0 W (Proc.devRef .tc main_arg3) = W (Proc.devRef .tc main_arg3) := by no_write
theorem keep0_arg4 : after hostOps0 W (Proc.devRef .tc main_arg4) = W (Proc.devRef .tc main_arg4) := by no_write
theorem keep0_arg5 : after hostOps0 W (Proc.devRef .tc main_arg5) = W (Proc.devRef .tc main_arg5) := by no_write
theorem keep0_arg6 : after hostOps0 W (Proc.devRef .tc main_arg6) = W (Proc.devRef .tc main_arg6) := by no_write
theorem keep0_arg7 : after hostOps0 W (Proc.devRef .tc main_arg7) = W (Proc.devRef .tc main_arg7) := by no_write
theorem keep1_v3 : after hostOps1 W (Proc.devRef .tc main_v3) = W (Proc.devRef .tc main_v3) := by no_write
theorem keep1_v6 : after hostOps1 W (Proc.devRef .tc main_v6) = W (Proc.devRef .tc main_v6) := by no_write
theorem keep1_v26 : after hostOps1 W (Proc.devRef .tc main_v26) = W (Proc.devRef .tc main_v26) := by no_write
theorem keep1_arg4 : after hostOps1 W (Proc.devRef .tc main_arg4) = W (Proc.devRef .tc main_arg4) := by no_write
theorem keep1_arg5 : after hostOps1 W (Proc.devRef .tc main_arg5) = W (Proc.devRef .tc main_arg5) := by no_write
theorem keep1_arg6 : after hostOps1 W (Proc.devRef .tc main_arg6) = W (Proc.devRef .tc main_arg6) := by no_write
theorem keep1_arg7 : after hostOps1 W (Proc.devRef .tc main_arg7) = W (Proc.devRef .tc main_arg7) := by no_write
theorem keep3_v3 : after hostOps3 W (Proc.devRef .tc main_v3) = W (Proc.devRef .tc main_v3) := by no_write
theorem keep3_v6 : after hostOps3 W (Proc.devRef .tc main_v6) = W (Proc.devRef .tc main_v6) := by no_write
theorem keep3_v26 : after hostOps3 W (Proc.devRef .tc main_v26) = W (Proc.devRef .tc main_v26) := by no_write
theorem keep3_arg6 : after hostOps3 W (Proc.devRef .tc main_arg6) = W (Proc.devRef .tc main_arg6) := by no_write
theorem keep3_arg7 : after hostOps3 W (Proc.devRef .tc main_arg7) = W (Proc.devRef .tc main_arg7) := by no_write

end Cert.KernelIdeal.Host

end
-- ==== Proof.Layers.lean ====
/-
  The Pallas regions' whole-array functions in the spelling of the network `Cert.Gcn`:
    * the row-by-column sums `Blocks.product` are the host's matrix product `Cert.Gcn.lin` (both are the sum over the
      contraction index of the operands' products, on the extended reals);
    * `Blocks.biasRelu` / `Blocks.biasOnly` over a bias laid out as a 1 × 128 row are `Cert.Gcn.relu ∘ addBias` and
      `Cert.Gcn.addBias` over the bias vector: entry `[r, c]` of either reads the bias at `c`.
-/
import proofs.«122727_j56057913147791_1_alg».proof.Proof.Gen.ReferenceIdeal.Read
import proofs.«122727_j56057913147791_1_alg».proof.Proof.MatmulBlock
import proofs.«122727_j56057913147791_1_alg».proof.Proof.BiasBlock
import proofs.«122727_j56057913147791_1_alg».proof.Proof.KHost
import proofs.«122727_j56057913147791_1_alg».proof.Proof.Spec

noncomputable section

namespace Cert.Gcn

open Idealize.ShloMosaic Idealize.ShloMosaic.TcCoe
open Cert.KernelIdeal.Blocks Cert.KernelIdeal.Host

/-- The region-wise product is the host's matrix product. -/
theorem product_eq_lin (X : (⟨Cert.ReferenceIdeal.S50000x128, .f32⟩ : BufTy).Contents (Elt Ideal))
    (W : (⟨Cert.ReferenceIdeal.S128x128, .f32⟩ : BufTy).Contents (Elt Ideal)) :
    product X W = lin X W := by
  funext i
  refine Eq.trans ?_ (Cert.ReferenceIdeal.Read.val_main_v27_apply X W i).symm
  unfold product
  refine Finset.sum_congr rfl fun k _ => ?_
  have hl : rowOf i k = Cert.ReferenceIdeal.Read.lidx_main_v27 i k := funext fun a => by
    match a with
    | ⟨0, _⟩ => rfl
    | ⟨1, _⟩ => rfl
  have hr : colOf i k = Cert.ReferenceIdeal.Read.ridx_main_v27 i k := funext fun a => by
    match a with
    | ⟨0, _⟩ => rfl
    | ⟨1, _⟩ => rfl
  rw [hl, hr]

/-- The bias vector's entry under column `c` of an entry of the whole array. -/
abbrev colIx (i : Cert.KernelIdeal.S50000x128.Idx) : Cert.KernelIdeal.S128.Idx := fun a => match a with
  | ⟨0, _⟩ => ⟨(i 1).val, (i 1).isLt⟩

/-- The bias laid out as a row, read above column `c`. -/
theorem biasRow_apply (b : (⟨Cert.KernelIdeal.S128, .f32⟩ : BufTy).Contents (Elt Ideal)) (i : Cert.KernelIdeal.S50000x128.Idx) :
    biasRow b (biasOf i) = b (colIx i) := by
  unfold biasRow
  refine (shapeCast_addUnit_apply (n := 1) ![128] b _ (biasOf i)).trans (congrArg b (funext fun a => ?_))
  match a with
  | ⟨0, _⟩ => rfl

/-- The bias broadcast over the rows the way the reference does it, read at an entry. -/
theorem biasBcast_apply (b : (⟨Cert.ReferenceIdeal.S128, .f32⟩ : BufTy).Contents (Elt Ideal)) (i : Cert.KernelIdeal.S50000x128.Idx) :
    broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 b) i = b (colIx i) := by
  refine (broadcastInDim_apply _ _ _ i (biasOf i) fun a => ?_).trans ?_
  · match a with
    | ⟨0, _⟩ => rfl
    | ⟨1, _⟩ => rfl
  · refine broadcastInDim_apply _ _ b (biasOf i) (colIx i) fun a => ?_
    match a with
    | ⟨0, _⟩ => rfl

/-- Bias then positive part: the region's function over the bias row is the network's over the bias vector. -/
theorem biasRelu_eq (A : (⟨Cert.ReferenceIdeal.S50000x128, .f32⟩ : BufTy).Contents (Elt Ideal))
    (b : (⟨Cert.ReferenceIdeal.S128, .f32⟩ : BufTy).Contents (Elt Ideal)) :
    biasRelu A (biasRow b) = relu (addBias A b) := by
  funext i
  unfold biasRelu relu addBias
  show max (A i + biasRow b (biasOf i)) _ = max (A i + _) _
  rw [biasRow_apply, biasBcast_apply]
  rfl

/-- Bias alone, likewise. -/
theorem biasOnly_eq (A : (⟨Cert.ReferenceIdeal.S50000x128, .f32⟩ : BufTy).Contents (Elt Ideal))
    (b : (⟨Cert.ReferenceIdeal.S128, .f32⟩ : BufTy).Contents (Elt Ideal)) :
    biasOnly A (biasRow b) = addBias A b := by
  funext i
  unfold biasOnly addBias
  show A i + biasRow b (biasOf i) = A i + _
  rw [biasRow_apply, biasBcast_apply]

end Cert.Gcn

end
-- ==== Proof.KValue.lean ====
/-
  The kernel program's result buffer, read back through its ten segments, is the network `Cert.Gcn.result` of the
  arguments.

  The buffers' contents at each segment boundary are the generated fold `Gen.W0 … Gen.W10`.  The first host stretch
  leaves the edge data (source column, target column, edge weights), which nothing later writes; an argument is never
  written.  Then layer by layer: the matmul region leaves the product of its operands (`Region0/2/4.final`), the
  stretch after it the message passing of that product and the bias as a row (`Host.agg*_eq`, `Host.row*_eq`), the bias
  region the bias step of those (`Region1/3/5.final`); `Cert.Gcn.product_eq_lin`, `biasRelu_eq` and `biasOnly_eq` put
  each into the network's spelling.
-/
import proofs.«122727_j56057913147791_1_alg».proof.Proof.Gen.KernelIdeal.Frame
import proofs.«122727_j56057913147791_1_alg».proof.Proof.Region0
import proofs.«122727_j56057913147791_1_alg».proof.Proof.Region1
import proofs.«122727_j56057913147791_1_alg».proof.Proof.Region2
import proofs.«122727_j56057913147791_1_alg».proof.Proof.Region3
import proofs.«122727_j56057913147791_1_alg».proof.Proof.Region4
import proofs.«122727_j56057913147791_1_alg».proof.Proof.Region5
import proofs.«122727_j56057913147791_1_alg».proof.Proof.KHost
import proofs.«122727_j56057913147791_1_alg».proof.Proof.Layers

noncomputable section

namespace Cert.KernelIdeal.Net

open Cert.KernelIdeal Cert.KernelIdeal.Gen Cert.KernelIdeal.Host Cert.KernelIdeal.Blocks
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Through a boundary: a buffer the segment does not write -/

theorem w2 (b : Ref sig .tc) (h : ∀ w, Pipeline.arrRef spec0 w ≠ b) :
    W2 m ρ c (Proc.devRef .tc b) = W1 m ρ c (Proc.devRef .tc b) := W2_of_ne m ρ c b h
theorem w4 (b : Ref sig .tc) (h : ∀ w, Pipeline.arrRef spec1 w ≠ b)
    (k : ∀ W : Valuation τ sig (Elt Ideal), after hostOps1 W (Proc.devRef .tc b) = W (Proc.devRef .tc b)) :
    W4 m ρ c (Proc.devRef .tc b) = W2 m ρ c (Proc.devRef .tc b) := (W4_of_ne m ρ c b h).trans (k (W2 m ρ c))
theorem w5 (b : Ref sig .tc) (h : ∀ w, Pipeline.arrRef spec2 w ≠ b) :
    W5 m ρ c (Proc.devRef .tc b) = W4 m ρ c (Proc.devRef .tc b) := W5_of_ne m ρ c b h
theorem w7 (b : Ref sig .tc) (h : ∀ w, Pipeline.arrRef spec3 w ≠ b)
    (k : ∀ W : Valuation τ sig (Elt Ideal), after hostOps3 W (Proc.devRef .tc b) = W (Proc.devRef .tc b)) :
    W7 m ρ c (Proc.devRef .tc b) = W5 m ρ c (Proc.devRef .tc b) := (W7_of_ne m ρ c b h).trans (k (W5 m ρ c))
theorem w8 (b : Ref sig .tc) (h : ∀ w, Pipeline.arrRef spec4 w ≠ b) :
    W8 m ρ c (Proc.devRef .tc b) = W7 m ρ c (Proc.devRef .tc b) := W8_of_ne m ρ c b h

/-! ## The edge data, at the entry of each later stretch -/

theorem src1 : W1 m ρ c (Proc.devRef .tc main_v3) = Cert.Gcn.srcOf (m ((c : Thread nD τ).loc main_arg1)) := src_eq (W0 m ρ c)
theorem dst1 : W1 m ρ c (Proc.devRef .tc main_v6) = Cert.Gcn.dstOf (m ((c : Thread nD τ).loc main_arg1)) := dst_eq (W0 m ρ c)
theorem norm1 : W1 m ρ c (Proc.devRef .tc main_v26) = Cert.Gcn.normOf (m ((c : Thread nD τ).loc main_arg1)) := norm_eq (W0 m ρ c)

theorem src2 : W2 m ρ c (Proc.devRef .tc main_v3) = Cert.Gcn.srcOf (m ((c : Thread nD τ).loc main_arg1)) :=
  (w2 m ρ c main_v3 (by decide)).trans (src1 m ρ c)
theorem dst2 : W2 m ρ c (Proc.devRef .tc main_v6) = Cert.Gcn.dstOf (m ((c : Thread nD τ).loc main_arg1)) :=
  (w2 m ρ c main_v6 (by decide)).trans (dst1 m ρ c)
theorem norm2 : W2 m ρ c (Proc.devRef .tc main_v26) = Cert.Gcn.normOf (m ((c : Thread nD τ).loc main_arg1)) :=
  (w2 m ρ c main_v26 (by decide)).trans (norm1 m ρ c)

theorem src5 : W5 m ρ c (Proc.devRef .tc main_v3) = Cert.Gcn.srcOf (m ((c : Thread nD τ).loc main_arg1)) :=
  (w5 m ρ c main_v3 (by decide)).trans ((w4 m ρ c main_v3 (by decide) keep1_v3).trans (src2 m ρ c))
theorem dst5 : W5 m ρ c (Proc.devRef .tc main_v6) = Cert.Gcn.dstOf (m ((c : Thread nD τ).loc main_arg1)) :=
  (w5 m ρ c main_v6 (by decide)).trans ((w4 m ρ c main_v6 (by decide) keep1_v6).trans (dst2 m ρ c))
theorem norm5 : W5 m ρ c (Proc.devRef .tc main_v26) = Cert.Gcn.normOf (m ((c : Thread nD τ).loc main_arg1)) :=
  (w5 m ρ c main_v26 (by decide)).trans ((w4 m ρ c main_v26 (by decide) keep1_v26).trans (norm2 m ρ c))

theorem src8 : W8 m ρ c (Proc.devRef .tc main_v3) = Cert.Gcn.srcOf (m ((c : Thread nD τ).loc main_arg1)) :=
  (w8 m ρ c main_v3 (by decide)).trans ((w7 m ρ c main_v3 (by decide) keep3_v3).trans (src5 m ρ c))
theorem dst8 : W8 m ρ c (Proc.devRef .tc main_v6) = Cert.Gcn.dstOf (m ((c : Thread nD τ).loc main_arg1)) :=
  (w8 m ρ c main_v6 (by decide)).trans ((w7 m ρ c main_v6 (by decide) keep3_v6).trans (dst5 m ρ c))
theorem norm8 : W8 m ρ c (Proc.devRef .tc main_v26) = Cert.Gcn.normOf (m ((c : Thread nD τ).loc main_arg1)) :=
  (w8 m ρ c main_v26 (by decide)).trans ((w7 m ρ c main_v26 (by decide) keep3_v26).trans (norm5 m ρ c))

/-! ## The arguments, where a segment reads them -/

theorem x_at1 : W1 m ρ c (Proc.devRef .tc main_arg0) = m ((c : Thread nD τ).loc main_arg0) := keep0_arg0 (W0 m ρ c)
theorem w1_at1 : W1 m ρ c (Proc.devRef .tc main_arg2) = m ((c : Thread nD τ).loc main_arg2) := keep0_arg2 (W0 m ρ c)
theorem b1_at2 : W2 m ρ c (Proc.devRef .tc main_arg3) = m ((c : Thread nD τ).loc main_arg3) :=
  (w2 m ρ c main_arg3 (by decide)).trans (keep0_arg3 (W0 m ρ c))
theorem w2_at4 : W4 m ρ c (Proc.devRef .tc main_arg4) = m ((c : Thread nD τ).loc main_arg4) :=
  (w4 m ρ c main_arg4 (by decide) keep1_arg4).trans ((w2 m ρ c main_arg4 (by decide)).trans (keep0_arg4 (W0 m ρ c)))
theorem b2_at5 : W5 m ρ c (Proc.devRef .tc main_arg5) = m ((c : Thread nD τ).loc main_arg5) :=
  (w5 m ρ c main_arg5 (by decide)).trans ((w4 m ρ c main_arg5 (by decide) keep1_arg5).trans
    ((w2 m ρ c main_arg5 (by decide)).trans (keep0_arg5 (W0 m ρ c))))
theorem w3_at7 : W7 m ρ c (Proc.devRef .tc main_arg6) = m ((c : Thread nD τ).loc main_arg6) :=
  (w7 m ρ c main_arg6 (by decide) keep3_arg6).trans ((w5 m ρ c main_arg6 (by decide)).trans
    ((w4 m ρ c main_arg6 (by decide) keep1_arg6).trans ((w2 m ρ c main_arg6 (by decide)).trans (keep0_arg6 (W0 m ρ c)))))
theorem b3_at8 : W8 m ρ c (Proc.devRef .tc main_arg7) = m ((c : Thread nD τ).loc main_arg7) :=
  (w8 m ρ c main_arg7 (by decide)).trans ((w7 m ρ c main_arg7 (by decide) keep3_arg7).trans ((w5 m ρ c main_arg7 (by decide)).trans
    ((w4 m ρ c main_arg7 (by decide) keep1_arg7).trans ((w2 m ρ c main_arg7 (by decide)).trans (keep0_arg7 (W0 m ρ c))))))

/-! ## The three layers -/

theorem aggWith_congr {s s' d d' : (⟨Cert.ReferenceIdeal.S850000, .i32⟩ : BufTy).Contents (Elt Ideal)}
    {w w' : (⟨Cert.ReferenceIdeal.S850000, .f32⟩ : BufTy).Contents (Elt Ideal)}
    {y y' : (⟨Cert.ReferenceIdeal.S50000x128, .f32⟩ : BufTy).Contents (Elt Ideal)}
    (hs : s = s') (hd : d = d') (hw : w = w') (hy : y = y') :
    Cert.Gcn.aggWith s d w y = Cert.Gcn.aggWith s' d' w' y' := by subst hs hd hw hy; rfl

/-- After the first matmul region: the first layer's linear transform. -/
theorem lin1 : W2 m ρ c (Proc.devRef .tc main_v27)
    = Cert.Gcn.lin (m ((c : Thread nD τ).loc main_arg0)) (m ((c : Thread nD τ).loc main_arg2)) := by
  rw [← Cert.Gcn.product_eq_lin]
  refine (W2_arr m ρ c 2).trans ((Region0.final (V1 m ρ) c).trans ?_)
  exact congrArg₂ product (x_at1 m ρ c) (w1_at1 m ρ c)

/-- After the first bias region: the first hidden layer. -/
theorem hid1 : W4 m ρ c (Proc.devRef .tc main_v42)
    = Cert.Gcn.layer (m ((c : Thread nD τ).loc main_arg1)) (m ((c : Thread nD τ).loc main_arg0))
        (m ((c : Thread nD τ).loc main_arg2)) (m ((c : Thread nD τ).loc main_arg3)) := by
  unfold Cert.Gcn.layer Cert.Gcn.layerOut Cert.Gcn.agg
  rw [← Cert.Gcn.biasRelu_eq]
  refine (W4_arr m ρ c 2).trans ((Region1.final (V3 m ρ) c).trans ?_)
  refine congrArg₂ biasRelu ?_ ?_
  · exact (agg1_eq (W2 m ρ c)).trans (aggWith_congr (src2 m ρ c) (dst2 m ρ c) (norm2 m ρ c) (lin1 m ρ c))
  · exact (row1_eq (W2 m ρ c)).trans (congrArg biasRow (b1_at2 m ρ c))

/-- After the second matmul region: the second layer's linear transform. -/
theorem lin2 : W5 m ρ c (Proc.devRef .tc main_v43)
    = Cert.Gcn.lin (Cert.Gcn.layer (m ((c : Thread nD τ).loc main_arg1)) (m ((c : Thread nD τ).loc main_arg0))
        (m ((c : Thread nD τ).loc main_arg2)) (m ((c : Thread nD τ).loc main_arg3))) (m ((c : Thread nD τ).loc main_arg4)) := by
  rw [← Cert.Gcn.product_eq_lin]
  refine (W5_arr m ρ c 2).trans ((Region2.final (V4 m ρ) c).trans ?_)
  exact congrArg₂ product (hid1 m ρ c) (w2_at4 m ρ c)

/-- After the second bias region: the second hidden layer. -/
theorem hid2 : W7 m ρ c (Proc.devRef .tc main_v58)
    = Cert.Gcn.layer (m ((c : Thread nD τ).loc main_arg1))
        (Cert.Gcn.layer (m ((c : Thread nD τ).loc main_arg1)) (m ((c : Thread nD τ).loc main_arg0))
          (m ((c : Thread nD τ).loc main_arg2)) (m ((c : Thread nD τ).loc main_arg3)))
        (m ((c : Thread nD τ).loc main_arg4)) (m ((c : Thread nD τ).loc main_arg5)) := by
  unfold Cert.Gcn.layer Cert.Gcn.layerOut Cert.Gcn.agg
  rw [← Cert.Gcn.biasRelu_eq]
  refine (W7_arr m ρ c 2).trans ((Region3.final (V6 m ρ) c).trans ?_)
  refine congrArg₂ biasRelu ?_ ?_
  · refine (agg3_eq (W5 m ρ c)).trans (aggWith_congr (src5 m ρ c) (dst5 m ρ c) (norm5 m ρ c) ?_)
    have h := lin2 m ρ c
    unfold Cert.Gcn.layer Cert.Gcn.layerOut Cert.Gcn.agg at h
    exact h
  · exact (row3_eq (W5 m ρ c)).trans (congrArg biasRow (b2_at5 m ρ c))

/-- After the third matmul region: the output layer's linear transform. -/
theorem lin3 : W8 m ρ c (Proc.devRef .tc main_v59)
    = Cert.Gcn.lin (Cert.Gcn.layer (m ((c : Thread nD τ).loc main_arg1))
        (Cert.Gcn.layer (m ((c : Thread nD τ).loc main_arg1)) (m ((c : Thread nD τ).loc main_arg0))
          (m ((c : Thread nD τ).loc main_arg2)) (m ((c : Thread nD τ).loc main_arg3)))
        (m ((c : Thread nD τ).loc main_arg4)) (m ((c : Thread nD τ).loc main_arg5))) (m ((c : Thread nD τ).loc main_arg6)) := by
  rw [← Cert.Gcn.product_eq_lin]
  refine (W8_arr m ρ c 2).trans ((Region4.final (V7 m ρ) c).trans ?_)
  exact congrArg₂ product (hid2 m ρ c) (w3_at7 m ρ c)

/-- After the last bias region: the network. -/
theorem out : W10 m ρ c (Proc.devRef .tc main_v74)
    = Cert.Gcn.result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  unfold Cert.Gcn.result
  generalize hh : Cert.Gcn.layer (m ((c : Thread nD τ).loc main_arg1))
        (Cert.Gcn.layer (m ((c : Thread nD τ).loc main_arg1)) (m ((c : Thread nD τ).loc main_arg0))
          (m ((c : Thread nD τ).loc main_arg2)) (m ((c : Thread nD τ).loc main_arg3)))
        (m ((c : Thread nD τ).loc main_arg4)) (m ((c : Thread nD τ).loc main_arg5)) = h2
  have hl := lin3 m ρ c
  rw [hh] at hl
  unfold Cert.Gcn.layerOut Cert.Gcn.agg
  rw [← Cert.Gcn.biasOnly_eq]
  refine (W10_arr m ρ c 2).trans ((Region5.final (V9 m ρ) c).trans ?_)
  refine congrArg₂ biasOnly ?_ ?_
  · exact (agg5_eq (W8 m ρ c)).trans (aggWith_congr (src8 m ρ c) (dst8 m ρ c) (norm8 m ρ c) hl)
  · exact (row5_eq (W8 m ρ c)).trans (congrArg biasRow (b3_at8 m ρ c))

end Cert.KernelIdeal.Net

end
-- ==== Proof.RefValue.lean ====
/-
  The reference program's result is the network `Cert.Gcn.result` of its arguments: its composed term is that
  function with every definition unfolded.
-/
import proofs.«122727_j56057913147791_1_alg».proof.Proof.Gen.ReferenceIdeal.Run
import proofs.«122727_j56057913147791_1_alg».proof.Proof.Spec

noncomputable section

namespace Cert.ReferenceIdeal.RefValue

open Cert.ReferenceIdeal Cert.ReferenceIdeal.Gen Cert.ReferenceIdeal.Value Idealize.ShloMosaic Idealize.ShloMosaic.TcCoe Idealize.SL.Sem

variable {F : FTy → Type} [FloatOps F]

set_option maxRecDepth 8192 in
/-- The reference's result buffer, as the run states it, is the network of the argument arrays. -/
theorem res_eq (m : (ℓ : Loc nD τ sig) → Buf (Elt F) ℓ) (c : Dev nD) :
    res_main_v79 m c = Cert.Gcn.result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) := by
  unfold res_main_v79 Cert.Gcn.result Cert.Gcn.layerOut Cert.Gcn.layer Cert.Gcn.layerOut Cert.Gcn.relu Cert.Gcn.addBias Cert.Gcn.lin
    Cert.Gcn.agg Cert.Gcn.aggWith Cert.Gcn.normOf Cert.Gcn.degInv Cert.Gcn.wrapIdx Cert.Gcn.srcOf Cert.Gcn.dstOf
  rfl

end Cert.ReferenceIdeal.RefValue

end
-- ==== Proof.lean ====
/-
  A three-layer graph convolution (GCNConv with self loops and symmetric normalisation) on 50000 nodes with 128
  features and 800000 edges: the kernel program computes each layer's linear transform `h · W` and its bias step
  (`+ b`, then `max (·, 0)` in the two hidden layers) in Pallas regions of ten row blocks each, and leaves the message
  passing (gather along the source column, the edge weights, scatter-add along the target column) to the same host
  operations the reference applies.

  Over the extended reals both programs end at `Cert.Gcn.result` of the eight arguments (Proof/Spec.lean):
    * the reference's composed term unfolds to it (Proof/RefValue.lean);
    * the kernel program's result buffer is read back through its ten segments (Proof/KRun.lean, Proof/KValue.lean):
      a matmul region leaves the row-by-column sums of its operands, which are the host's matrix product
      (the bf16 casts are the identity and the accumulator starts at zero); a bias region leaves `a[r, c] + b[0, c]`
      (and its positive part), which is the reference's broadcast bias; the host stretches in between are the
      reference's own operations on those values.
  No law of arithmetic beyond these identifications is used, so the precondition (finite float inputs) is never opened.
  The ideal pass rewrote nothing: `preserves` is `True`.
-/
import proofs.«122727_j56057913147791_1_alg».proof.Defs
import proofs.«122727_j56057913147791_1_alg».proof.Proof.Gen.Kernel
import proofs.«122727_j56057913147791_1_alg».proof.Proof.Gen.Kernel.Skeleton
import proofs.«122727_j56057913147791_1_alg».proof.Proof.Gen.Kernel.Launch
import proofs.«122727_j56057913147791_1_alg».proof.Proof.Gen.Kernel.Points
import proofs.«122727_j56057913147791_1_alg».proof.Proof.Gen.Kernel.Frame
import proofs.«122727_j56057913147791_1_alg».proof.Proof.Gen.KernelIdeal
import proofs.«122727_j56057913147791_1_alg».proof.Proof.Gen.KernelIdeal.Skeleton
import proofs.«122727_j56057913147791_1_alg».proof.Proof.Gen.KernelIdeal.Launch
import proofs.«122727_j56057913147791_1_alg».proof.Proof.Gen.KernelIdeal.Points
import proofs.«122727_j56057913147791_1_alg».proof.Proof.Gen.KernelIdeal.Frame
import proofs.«122727_j56057913147791_1_alg».proof.Proof.Gen.ReferenceIdeal
import proofs.«122727_j56057913147791_1_alg».proof.Proof.Gen.ReferenceIdeal.Run
import proofs.«122727_j56057913147791_1_alg».proof.Proof.Gen.Pre_finite_inputs
import proofs.«122727_j56057913147791_1_alg».proof.Proof.KRun
import proofs.«122727_j56057913147791_1_alg».proof.Proof.KValue
import proofs.«122727_j56057913147791_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the (agreeing) arguments in their result buffers. -/
theorem algebraic : Cert.algebraic_KernelIdeal_ReferenceIdeal := by
  intro m ρ m' ρ' _ hagree
  refine ⟨fun c => Cert.Gcn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Net.out m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.RefValue.res_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
